-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S16384x256 : Shape := ⟨2, ![16384, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S4096x256 .f32) (main_arg1 : FVec F S16384x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S4096x256 : Shape := ⟨2, ![4096, 256]⟩
abbrev S16384x256 : Shape := ⟨2, ![16384, 256]⟩
abbrev S4096x16384 : Shape := ⟨2, ![4096, 16384]⟩
abbrev S512x256 : Shape := ⟨2, ![512, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S256x2048 : Shape := ⟨2, ![256, 2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S4096x16384, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S512x2048, .f32⟩
  | .local _ .vmem, ⟨5, _⟩ => ⟨S512x2048, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x256_S512x256_0_0 : ∀ a, (![0, 0] : Fin 2 → Nat) a + S512x256.size a ≤ S512x256.size a
  h_S512x256 : 0 < S512x256.numel
  inb_S2048x256_S2048x256_0_0 : ∀ a, (![0, 0] : Fin 2 → Nat) a + S2048x256.size a ≤ S2048x256.size a
  h_S2048x256 : 0 < S2048x256.numel
  reduces_S512x256_S512 : S512x256.Reduces [1] S512
  shapeCasts_S512_S512x1 : S512.ShapeCasts S512x1
  reduces_S2048x256_S2048 : S2048x256.Reduces [1] S2048
  shapeCasts_S2048_S2048x1 : S2048.ShapeCasts S2048x1
  bitsLt_bf16_f32 : FTy.bits .bf16 < FTy.bits .f32
  transposes_S2048x256_p1_0_S256x2048 : S2048x256.Transposes [1, 0] S256x2048
  transposes_S2048x1_p1_0_S1x2048 : S2048x1.Transposes [1, 0] S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x16384.size a
  hwx0_2 : ∀ i : grid0.Coords, EltTy.bits .f32 = 32 ∨ (Rect.block (s := S4096x16384) S512x2048.size (cc0_transform_2 i) (hinb0_2 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x256 : Shape := ⟨2, ![4096, 256]⟩
abbrev S16384x256 : Shape := ⟨2, ![16384, 256]⟩
abbrev S_ : Shape := ⟨0, ![]⟩
abbrev S4096 : Shape := ⟨1, ![4096]⟩
abbrev S16384 : Shape := ⟨1, ![16384]⟩
abbrev S4096x16384 : Shape := ⟨2, ![4096, 16384]⟩
abbrev S4096x1 : Shape := ⟨2, ![4096, 1]⟩
abbrev S1x16384 : Shape := ⟨2, ![1, 16384]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S16384x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S4096x16384, .f32⟩
  | .hbm, ⟨9, _⟩ => ⟨S4096x1, .f32⟩
  | .hbm, ⟨10, _⟩ => ⟨S1x16384, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S4096x16384, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  reducesTo_S16384x256_S16384_d1 : S16384x256.ReducesTo [1] S16384
  bcast_S4096_S4096x1_0 : S4096.BroadcastsInDim S4096x1 (![0] : Fin 1 → Fin S4096x1.rank)
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  dot_S4096x256_S16384x256_S4096x16384_1_1_0_0_n_n_wf : DotDims.WF S4096x256 S16384x256 S4096x16384 [1] [1] [0] [0] [] []

variable [Facts₀]

def dot_S4096x256_S16384x256_S4096x16384_1_1_0_0_n_n : DotDims S4096x256 S16384x256 S4096x16384 where
  lhsContracting := [1]
  rhsContracting := [1]
  lhsNonContracting := [0]
  rhsNonContracting := [0]
  lhsBatch := []
  rhsBatch := []
  wf := dot_S4096x256_S16384x256_S4096x16384_1_1_0_0_n_n_wf

class Facts : Prop extends Facts₀ where

variable [Facts]
-- ==== Proof.PairDist.lean ====
/-
  The Euclidean distance between every row of one matrix and every row of another, written through the expansion
  ‖a − b‖² = ‖a‖² + ‖b‖² − 2⟨a, b⟩ on the extended reals: entry (p, q) is the square root of the larger of zero and
  (Σₖ a(p,k)² + Σₖ b(q,k)²) − 2 · Σₖ a(p,k) · b(q,k).  The grouping is exactly this one (the two squared norms are
  added first, the doubled inner product is subtracted from their sum), so that both programs compute this very
  term and no law of the extended reals beyond the reading of each sum is needed.  The two constants are kept as the
  words the programs print (2.0 and 0.0 in binary32).
-/
import Idealize.ShloMosaic.Lib.ValueIdx
import Idealize.ShloMosaic.PureOps.Ideal.Laws

noncomputable section

namespace Cert.PairDist

open Idealize.ShloMosaic Idealize.ShloMosaic.ValueIdx

variable {R M N K : ℕ}

/-- The squared Euclidean norm of row `p` of a matrix: the sum over the columns of the squared entries. -/
def rowSq (a : (⟨2, ![R, K]⟩ : Shape).Idx → EReal) (p : Fin R) : EReal :=
  ∑ k : Fin K, a (ix2 p k) * a (ix2 p k)

/-- The inner product of row `p` of the first matrix with row `q` of the second. -/
def inner (a : (⟨2, ![M, K]⟩ : Shape).Idx → EReal) (b : (⟨2, ![N, K]⟩ : Shape).Idx → EReal) (p : Fin M) (q : Fin N) : EReal :=
  ∑ k : Fin K, a (ix2 p k) * b (ix2 q k)

/-- The distance between row `p` of the first matrix and row `q` of the second, through the expansion of the square. -/
def dist (a : (⟨2, ![M, K]⟩ : Shape).Idx → EReal) (b : (⟨2, ![N, K]⟩ : Shape).Idx → EReal) (p : Fin M) (q : Fin N) : EReal :=
  Ideal.sqrt (max ((rowSq a p + rowSq b q) - Ideal.ofBits .f32 0x40000000#32 * inner a b p q) (Ideal.ofBits .f32 0x00000000#32))

/-- The whole distance matrix: entry `i` is the distance between the rows that `i`'s two coordinates name. -/
def distMat (a : (⟨2, ![M, K]⟩ : Shape).Idx → EReal) (b : (⟨2, ![N, K]⟩ : Shape).Idx → EReal) :
    (⟨2, ![M, N]⟩ : Shape).Idx → EReal :=
  fun i => dist a b (i 0) (i 1)

theorem distMat_ix2 (a : (⟨2, ![M, K]⟩ : Shape).Idx → EReal) (b : (⟨2, ![N, K]⟩ : Shape).Idx → EReal) (p : Fin M) (q : Fin N) :
    distMat a b (ix2 p q) = dist a b p q := rfl

/-- The distance depends on the two rows only: if row `p` of `a` is row `p'` of `a'` and row `q` of `b` is row `q'` of `b'`,
    entry by entry, the distances agree.  This is how a block of the matrices (rows `p`, `q` inside the block) is
    compared with the whole matrices (rows `p'`, `q'` of the arrays). -/
theorem dist_congr {M' N' : ℕ} (a : (⟨2, ![M, K]⟩ : Shape).Idx → EReal) (b : (⟨2, ![N, K]⟩ : Shape).Idx → EReal)
    (a' : (⟨2, ![M', K]⟩ : Shape).Idx → EReal) (b' : (⟨2, ![N', K]⟩ : Shape).Idx → EReal)
    (p : Fin M) (q : Fin N) (p' : Fin M') (q' : Fin N')
    (ha : ∀ k : Fin K, a (ix2 p k) = a' (ix2 p' k)) (hb : ∀ k : Fin K, b (ix2 q k) = b' (ix2 q' k)) :
    dist a b p q = dist a' b' p' q' := by
  unfold dist rowSq inner
  simp only [ha, hb]

end Cert.PairDist

end
-- ==== Proof.RefDist.lean ====
/-
  The reference program, read one entry at a time on the extended reals, is the distance matrix: its two row-wise
  sums of squares (each begun from the constant zero), broadcast down the rows and across the columns, are the two
  squared norms; its contraction of the two matrices over their shared column index is the inner product of row
  `p` of the first with row `q` of the second; and the difference, its clamp at zero and the square root are applied
  entry by entry.
-/
import proofs.«131015_j27230092657008_1_alg».proof.Proof.Gen.ReferenceIdeal.Read
import proofs.«131015_j27230092657008_1_alg».proof.Proof.PairDist

noncomputable section

namespace Cert.ReferenceIdeal.RefValue

open Cert.ReferenceIdeal Cert.ReferenceIdeal.Gen Cert.ReferenceIdeal.Read Idealize.ShloMosaic Idealize.ShloMosaic.ValueIdx

/-- Entry (p, q) of the reference's result is the distance between row `p` of its first argument and row `q` of its
    second. -/
theorem result_apply (x0 : (⟨S4096x256, .f32⟩ : BufTy).Contents (Elt Ideal)) (x1 : (⟨S16384x256, .f32⟩ : BufTy).Contents (Elt Ideal))
    (p : Fin 4096) (q : Fin 16384) :
    val_main_v15 (F := Ideal) x0 x1 (ix2 p q) = Cert.PairDist.dist x0 x1 p q := by
  rw [val_main_v15_apply, val_main_v14_apply, val_main_v12_apply, val_main_v9_apply, val_main_v11_apply, val_main_v7_apply,
    val_main_v8_apply, val_main_v5_apply, val_main_v6_apply, val_main_v1_apply, val_main_v3_apply, val_main_v4_apply,
    val_main_v10_apply, val_main_v13_apply]
  have e1 : ∀ k : Fin 256, idx_main_v1 (idx_main_v5 (idx_main_v7 (ix2 p q))) k = ix2 p k := fun k =>
    funext fun a => Fin.ext (by match a with | ⟨0, _⟩ => rfl | ⟨1, _⟩ => rfl)
  have e3 : ∀ k : Fin 256, idx_main_v3 (idx_main_v6 (idx_main_v8 (ix2 p q))) k = ix2 q k := fun k =>
    funext fun a => Fin.ext (by match a with | ⟨0, _⟩ => rfl | ⟨1, _⟩ => rfl)
  have el : ∀ k : Fin 256, lidx_main_v4 (ix2 p q) k = ix2 p k := fun k =>
    funext fun a => Fin.ext (by match a with | ⟨0, _⟩ => rfl | ⟨1, _⟩ => rfl)
  have er : ∀ k : Fin 256, ridx_main_v4 (ix2 p q) k = ix2 q k := fun k =>
    funext fun a => Fin.ext (by match a with | ⟨0, _⟩ => rfl | ⟨1, _⟩ => rfl)
  simp only [e1, e3, el, er, val_main_v0_apply, val_main_v2_apply, val_main_cst_apply, val_main_cst_0_apply,
    val_main_cst_1_apply, val_main_cst_2_apply, Ideal.hostUnary_sqrt_def, Ideal.maximumf_def, Ideal.subf_def,
    Ideal.addf_def, Ideal.mulf_def, Ideal.ofBits_def, Ideal.ofBits_zero_f32, zero_add,
    Cert.PairDist.dist, Cert.PairDist.rowSq, Cert.PairDist.inner]

/-- So the reference's result array is the distance matrix of its two arguments. -/
theorem result_eq (x0 : (⟨S4096x256, .f32⟩ : BufTy).Contents (Elt Ideal)) (x1 : (⟨S16384x256, .f32⟩ : BufTy).Contents (Elt Ideal)) :
    val_main_v15 (F := Ideal) x0 x1 = Cert.PairDist.distMat x0 x1 := by
  funext i
  obtain ⟨p, q, rfl⟩ : ∃ (p : Fin 4096) (q : Fin 16384), i = ix2 p q := ⟨i 0, i 1, eq_ix2 i⟩
  exact result_apply x0 x1 p q

end Cert.ReferenceIdeal.RefValue

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.BlockDist.lean ====
/-
  What the kernel body computes from one block of rows of each matrix, read one entry at a time on the extended
  reals: entry (p, q) of the stored block is the distance between row `p` of the first block and row `q` of the second.
  The row sums of squares are lane reductions begun from zero, kept as a column, and broadcast — the first across the
  columns, the second, after a transposition to a row, down the rows; the cross term is the matrix product of the
  first block with the transposed second block into a zero accumulator, its operands narrowed to a shorter float
  format, which on the extended reals changes nothing.
-/
import proofs.«131015_j27230092657008_1_alg».proof.Proof.Gen.KernelIdeal.Skeleton
import proofs.«131015_j27230092657008_1_alg».proof.Proof.PairDist
import proofs.«131015_j27230092657008_1_alg».proof.Proof.LibMatmulPlain
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.ValueIdx

/-- A row-wise sum of squares begun from zero, at row `r`: the squared norm of that row. -/
theorem sumsq_apply {R C : ℕ} (x : FVec Ideal ⟨2, ![R, C]⟩ .f32) (h : (⟨2, ![R, C]⟩ : Shape).Reduces [1] ⟨1, ![R]⟩)
    (hφ : FKind.Formats .f32) (hacc : (0x00000000#32 : BitVec (FTy.bits .f32)) = FKind.add.neutral .f32 hφ) (r : Fin R) :
    multiReduction .add [1] ⟨1, ![R]⟩ (mulf x x) 0x00000000#32 h hφ hacc (ix1 r) = Cert.PairDist.rowSq x r := by
  refine (Ideal.multiReduction_add_single (mulf x x) 0x00000000#32 h hφ hacc (ix1 r)).trans ?_
  unfold Cert.PairDist.rowSq
  refine Finset.sum_congr rfl fun k _ => ?_
  have e : h.lift (ix1 r) k = ix2 r k := funext fun a => Fin.ext (by match a with | ⟨0, _⟩ => rfl | ⟨1, _⟩ => rfl)
  rw [e]
  rfl

/-- A vector of `R` entries kept as an `R × 1` column reads, at (r, 0), entry `r`. -/
theorem column_apply {α : Type} {R : ℕ} (v : (⟨1, ![R]⟩ : Shape).Idx → α) (h : (⟨1, ![R]⟩ : Shape).ShapeCasts ⟨2, ![R, 1]⟩)
    (r : Fin R) (u : Fin 1) : shapeCast ⟨2, ![R, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- An `R × 1` column broadcast across `C` columns reads, at (r, c), the column's entry (r, 0). -/
theorem column_bcast_apply {α : Type} {R C : ℕ} (v : (⟨2, ![R, 1]⟩ : Shape).Idx → α)
    (h : (⟨2, ![R, 1]⟩ : Shape).Broadcasts ⟨2, ![R, C]⟩) (r : Fin R) (c : Fin C) :
    broadcastTo ⟨2, ![R, C]⟩ v h (ix2 r c) = v (ix2 r (0 : Fin 1)) :=
  broadcastTo_apply v h _ _ (fun a => match a with
    | ⟨0, _⟩ => by
        show r.val = if R = 1 then 0 else r.val
        split
        · have := r.isLt; omega
        · rfl
    | ⟨1, _⟩ => by show 0 = if (1 : Nat) = 1 then 0 else c.val; rw [if_pos rfl])

/-- A `1 × C` row broadcast down `R` rows reads, at (r, c), the row's entry (0, c). -/
theorem row_bcast_apply {α : Type} {R C : ℕ} (v : (⟨2, ![1, C]⟩ : Shape).Idx → α)
    (h : (⟨2, ![1, C]⟩ : Shape).Broadcasts ⟨2, ![R, C]⟩) (r : Fin R) (c : Fin C) :
    broadcastTo ⟨2, ![R, C]⟩ v h (ix2 r c) = v (ix2 (0 : Fin 1) c) :=
  broadcastTo_apply v h _ _ (fun a => match a with
    | ⟨0, _⟩ => by show 0 = if (1 : Nat) = 1 then 0 else r.val; rw [if_pos rfl]
    | ⟨1, _⟩ => by
        show c.val = if C = 1 then 0 else c.val
        split
        · have := c.isLt; omega
        · rfl)

/-- The kernel's dimension numbers are the plain ones: rows × contraction by contraction × columns. -/
theorem plain : Cert.Gcn.IsPlain dot_S512x256_S256x2048_S512x2048_1_0_0_1_n_n := ⟨rfl, rfl, rfl, rfl, rfl, rfl⟩

/-- Entry (p, q) of the block the body stores is the distance between row `p` of the first loaded block and row `q`
    of the second. -/
theorem pay_apply (x0 : FVec Ideal S512x256 .f32) (x1 : FVec Ideal S2048x256 .f32) (p : Fin 512) (q : Fin 2048) :
    k0_pay1 (F := Ideal) x0 x1 (ix2 p q) = Cert.PairDist.dist x0 x1 p q := by
  have hA : broadcastTo S512x2048 (shapeCast S512x1 (multiReduction .add [1] S512 (mulf x0 x0) 0x00000000#32
      reduces_S512x256_S512 (.inl rfl) rfl) shapeCasts_S512_S512x1) broadcasts_S512x1_S512x2048 (ix2 p q)
      = Cert.PairDist.rowSq x0 p :=
    (column_bcast_apply _ broadcasts_S512x1_S512x2048 p q).trans
      ((column_apply _ shapeCasts_S512_S512x1 p 0).trans (sumsq_apply x0 reduces_S512x256_S512 (.inl rfl) rfl p))
  have hB : broadcastTo S512x2048 (transpose S1x2048 [1, 0] (shapeCast S2048x1 (multiReduction .add [1] S2048 (mulf x1 x1)
      0x00000000#32 reduces_S2048x256_S2048 (.inl rfl) rfl) shapeCasts_S2048_S2048x1) transposes_S2048x1_p1_0_S1x2048)
      broadcasts_S1x2048_S512x2048 (ix2 p q) = Cert.PairDist.rowSq x1 q :=
    (row_bcast_apply _ broadcasts_S1x2048_S512x2048 p q).trans
      ((transpose_ix2_apply _ transposes_S2048x1_p1_0_S1x2048 (0 : Fin 1) q).trans
        ((column_apply _ shapeCasts_S2048_S2048x1 q 0).trans (sumsq_apply x1 reduces_S2048x256_S2048 (.inl rfl) rfl q)))
  have hC : matmul dot_S512x256_S256x2048_S512x2048_1_0_0_1_n_n none (truncf .bf16 x0 bitsLt_bf16_f32)
      (transpose S256x2048 [1, 0] (truncf .bf16 x1 bitsLt_bf16_f32) transposes_S2048x256_p1_0_S256x2048)
      (constant (F := Ideal) S512x2048 .f32 0x00000000#32) (ix2 p q) = Cert.PairDist.inner x0 x1 p q := by
    refine (Cert.Gcn.matmul_plain_apply _ plain none _ _ p q).trans ?_
    unfold Cert.PairDist.inner
    refine Finset.sum_congr rfl fun k _ => ?_
    rw [transpose_ix2_apply]
    rfl
  unfold k0_pay1 Cert.PairDist.dist
  exact congrArg Ideal.sqrt (congrArg (fun z => max z (Ideal.ofBits .f32 0x00000000#32))
    (congrArg₂ (fun a b => a - b) (congrArg₂ (fun a b => a + b) hA hB)
      (congrArg (fun z => Ideal.ofBits .f32 0x40000000#32 * z) hC)))

/-- The same at any index of the stored block, through its two coordinates. -/
theorem pay_idx (x0 : FVec Ideal S512x256 .f32) (x1 : FVec Ideal S2048x256 .f32) (j : S512x2048.Idx) :
    k0_pay1 (F := Ideal) x0 x1 j = Cert.PairDist.dist x0 x1 (j 0) (j 1) := by
  obtain ⟨p, q, rfl⟩ : ∃ (p : Fin 512) (q : Fin 2048), j = ix2 p q := ⟨j 0, j 1, eq_ix2 j⟩
  exact pay_apply x0 x1 p q

end Cert.KernelIdeal.BlockValue

end
-- ==== Proof.KernelDist.lean ====
/-
  The kernel's result array is the distance matrix of its two argument arrays.  The grid is 8 × 8; at point (a, b) the
  body is given rows 512·a … 512·a + 511 of the first matrix and rows 2048·b … 2048·b + 2047 of the second, all 256
  columns of each, and writes block (a, b) of the result.  So entry (p, q) of the block written at (a, b) is the
  distance between rows 512·a + p and 2048·b + q, which is the distance matrix's entry at the block's place in the
  array; and the 64 blocks tile the 4096 × 16384 array, the block that holds entry (r, s) being (r / 512, s / 2048).
-/
import proofs.«131015_j27230092657008_1_alg».proof.Proof.Gen.KernelIdeal.Value
import proofs.«131015_j27230092657008_1_alg».proof.Proof.BlockDist

noncomputable section

namespace Cert.KernelIdeal.ArrValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The three index maps over the 64 grid points: the first matrix's block row is the result's block row, the second
    matrix's block row is the result's block column, both matrices are taken at all their columns, and the result's
    block coordinates stay below 8. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every one of the 8 × 8 blocks of the result is some grid point's. -/
theorem block_onto : ∀ (a : Fin 8) (b : Fin 8), ∃ t : Fin cfg0.N, win0_2.index t = ![a.val, b.val] :=
  (by decide +kernel : ∀ (a : Fin 8) (b : Fin 8), ∃ t : Fin grid0.N, win0_2.index t = ![a.val, b.val])

/-- The distance matrix of the two argument arrays as the region finds them. -/
abbrev result (c : Dev nD) : S4096x16384.Idx → EReal :=
  Cert.PairDist.distMat (V m c main_arg0 : S4096x256.Idx → EReal) (V m c main_arg1 : S16384x256.Idx → EReal)

/-- What grid point `t` writes back is block `t` of the distance matrix. -/
theorem flushed_eq (c : Dev nD) (t : Fin cfg0.N) :
    (dats m 0 c).flushed 2 t = ((cfg0.win 2).blk t).view.read (Elt Ideal) (result m c) := by
  rw [Value.flushed2]
  unfold out0_2
  rw [View.canon_unit_zero origin]
  simp only [View.ld_unit_zero (S := S512x256) origin, View.ld_unit_zero (S := S2048x256) origin]
  obtain ⟨e0, e1, e2, e3, -, -⟩ := block_indices t
  funext j
  show k0_pay1 (F := Ideal) (iblk m c 0 t) (iblk m c 1 t) j
    = Cert.PairDist.dist (V m c main_arg0 : S4096x256.Idx → EReal) (V m c main_arg1 : S16384x256.Idx → EReal)
        ((((cfg0.win 2).blk t).view.emb j) 0) ((((cfg0.win 2).blk t).view.emb j) 1)
  refine (BlockValue.pay_idx (iblk m c 0 t) (iblk m c 1 t) j).trans ?_
  refine Cert.PairDist.dist_congr (iblk m c 0 t) (iblk m c 1 t) (V m c main_arg0 : S4096x256.Idx → EReal)
    (V m c main_arg1 : S16384x256.Idx → EReal) (j 0) (j 1) ((((cfg0.win 2).blk t).view.emb j) 0)
    ((((cfg0.win 2).blk t).view.emb j) 1) (fun k => ?_) (fun k => ?_)
  · show (V m c main_arg0 : S4096x256.Idx → EReal) (((cfg0.win 0).blk t).view.emb (ix2 (j 0) k))
      = (V m c main_arg0 : S4096x256.Idx → EReal) (ix2 (((cfg0.win 2).blk t).view.emb j 0) k)
    refine congrArg (V m c main_arg0 : S4096x256.Idx → EReal) (funext fun a => Fin.ext ?_)
    match a with
    | ⟨0, _⟩ =>
      show win0_0.index t (0 : Fin 2) * 512 + 1 * (j 0).val = win0_2.index t (0 : Fin 2) * 512 + 1 * (j 0).val
      rw [e0]
    | ⟨1, _⟩ =>
      show win0_0.index t (1 : Fin 2) * 256 + 1 * k.val = k.val
      rw [e1]; omega
  · show (V m c main_arg1 : S16384x256.Idx → EReal) (((cfg0.win 1).blk t).view.emb (ix2 (j 1) k))
      = (V m c main_arg1 : S16384x256.Idx → EReal) (ix2 (((cfg0.win 2).blk t).view.emb j 1) k)
    refine congrArg (V m c main_arg1 : S16384x256.Idx → EReal) (funext fun a => Fin.ext ?_)
    match a with
    | ⟨0, _⟩ =>
      show win0_1.index t (0 : Fin 2) * 2048 + 1 * (j 1).val = win0_2.index t (1 : Fin 2) * 2048 + 1 * (j 1).val
      rw [e2]
    | ⟨1, _⟩ =>
      show win0_1.index t (1 : Fin 2) * 256 + 1 * k.val = k.val
      rw [e3]; omega

/-- An entry of the result array lies in grid point `t`'s block exactly when each of its coordinates lies in the
    block's range on that axis. -/
theorem mem_block (t : Fin cfg0.N) (i : S4096x16384.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v0).slice (win0_2.rect t)).set ↔ _
  rw [View.set_slice_whole, Rect.mem_set_unit]
  exact Iff.rfl

/-- The blocks tile the array: entry (r, s) lies in the block of the point whose block coordinates are
    (r / 512, s / 2048). -/
theorem covered (i : S4096x16384.Idx) :
    ∃ t : Fin cfg0.N, (cfg0.win 2).flush t = true ∧ i ∈ ((cfg0.win 2).blk t).view.set := by
  have hi0 : (i 0).val < 4096 := (i 0).isLt
  have hi1 : (i 1).val < 16384 := (i 1).isLt
  obtain ⟨t, ht⟩ := block_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 2048 ≤ (i 1).val ∧ (i 1).val < win0_2.index t (1 : Fin 2) * 2048 + 2048
    omega

/-- So after the run the result array is the distance matrix of the two arguments as launched. -/
theorem final (c : Dev nD) : (dats m 0 c).arrAt 2 cfg0.N
    = Cert.PairDist.distMat (m ((c : Thread nD τ).loc main_arg0) : S4096x256.Idx → EReal)
        (m ((c : Thread nD τ).loc main_arg1) : S16384x256.Idx → EReal) :=
  (dats m 0 c).arrAt_eq_of_cover 2 (result m c) (fun t _ => flushed_eq m c t) covered

/-- The kernel's run, read: the result array ends at the distance matrix of the arguments, which end unchanged. -/
theorem run : θ_run defs (onTc (τ := τ) (main (F := Ideal))) ⟨m, fun _ => 0, ρ⟩ fun r => ∀ c : Dev nD,
      r.2.mem ((c : Thread nD τ).loc main_v0)
        = Cert.PairDist.distMat (m ((c : Thread nD τ).loc main_arg0) : S4096x256.Idx → EReal)
            (m ((c : Thread nD τ).loc main_arg1) : S16384x256.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrValue

end
-- ==== Proof.lean ====
/-
  The pairwise Euclidean distance kernel against its reference, on the extended reals.

  Both programs compute, for a 4096 × 256 matrix x and a 16384 × 256 matrix y, the 4096 × 16384 matrix whose entry
  (p, q) is  √ max( (Σₖ x(p,k)² + Σₖ y(q,k)²) − 2 · Σₖ x(p,k) · y(q,k), 0 ).  The reference does it on the whole
  matrices; the kernel does it block by block over an 8 × 8 grid, 512 rows of x against 2048 rows of y at a time,
  with the operands of its matrix product narrowed to a shorter float format, which is the identity on the extended
  reals.  Since the two sides group their additions and the subtraction the same way, the equality needs nothing of the
  extended reals but the reading of each sum, and the finiteness of the inputs is not used.

  The specification is `Cert.PairDist.distMat`; the reference's result is read against it entry by entry, and the
  kernel's result block by block, the blocks tiling the array.  The three frames are the generated ones (for the
  reference, its generated run with the result dropped), and the idealization rewrote nothing, so that conjunct is
  trivial.
-/
import proofs.«131015_j27230092657008_1_alg».proof.Defs
import proofs.«131015_j27230092657008_1_alg».proof.Proof.Gen.Kernel
import proofs.«131015_j27230092657008_1_alg».proof.Proof.Gen.Kernel.Skeleton
import proofs.«131015_j27230092657008_1_alg».proof.Proof.Gen.Kernel.Launch
import proofs.«131015_j27230092657008_1_alg».proof.Proof.Gen.Kernel.Points
import proofs.«131015_j27230092657008_1_alg».proof.Proof.Gen.Kernel.Frame
import proofs.«131015_j27230092657008_1_alg».proof.Proof.Gen.KernelIdeal
import proofs.«131015_j27230092657008_1_alg».proof.Proof.Gen.KernelIdeal.Skeleton
import proofs.«131015_j27230092657008_1_alg».proof.Proof.Gen.KernelIdeal.Launch
import proofs.«131015_j27230092657008_1_alg».proof.Proof.Gen.KernelIdeal.Points
import proofs.«131015_j27230092657008_1_alg».proof.Proof.Gen.KernelIdeal.Frame
import proofs.«131015_j27230092657008_1_alg».proof.Proof.Gen.ReferenceIdeal
import proofs.«131015_j27230092657008_1_alg».proof.Proof.Gen.Pre_finite_inputs
import proofs.«131015_j27230092657008_1_alg».proof.Proof.Gen.KernelIdeal.Value
import proofs.«131015_j27230092657008_1_alg».proof.Proof.Gen.ReferenceIdeal.Run
import proofs.«131015_j27230092657008_1_alg».proof.Proof.Gen.ReferenceIdeal.Read
import proofs.«131015_j27230092657008_1_alg».proof.Proof.RefDist
import proofs.«131015_j27230092657008_1_alg».proof.Proof.KernelDist
import Idealize.ShloMosaic.Adequacy
import Idealize.ShloMosaic.Init

noncomputable section

namespace Cert.Proof

open Idealize.ShloMosaic Idealize.SL.Sem

/-- The reference runs and leaves its arguments as they were: its generated run, the result forgotten. -/
theorem frame_reference [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- From memories that agree on x and y, the kernel's result array and the reference's both end at the distance matrix
    of x and y. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
